-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192x8192 : Shape := ⟨2, ![8192, 8192]⟩
abbrev S1024x256 : Shape := ⟨2, ![1024, 256]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 2
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  transposes_S1024x1_p1_0_S1x1024 : S1024x1.Transposes [1, 0] S1x1024
  bitsLt_bf16_f32 : FTy.bits .bf16 < FTy.bits .f32
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192, .f32⟩
  | .hbm, ⟨4, _⟩ => ⟨S256x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.RunK.lean ====
/-
  The run of the pairwise-distance kernel, at any float instance.

  The pallas_call has a grid of 8 × 8 points (i, j). Its two input windows are BOTH cut from the one argument array:
  window 0 is the row block i (1024 rows of 256), window 1 the row block j; window 2 is the output's (i, j) block of
  1024 × 1024. At a point the body loads the two row blocks, computes one value `k0_pay1` of them, and stores it over
  the whole output block (it also loads the output block first and never uses what it read).

  Because two windows read one array, the array's points-to cannot be handed to each window whole: it is halved along
  the share, window 0 holding the left half and window 1 the right, which is enough to read from. The output window
  holds its array outright. With that split the library's launch for windows that share arrays applies, and its
  conclusion names each array after the run: the argument array as it was, the output array as the entry contents
  overwritten block by block with what the body stored.
-/
import proofs.«159041_j38259568672963_1_alg».proof.Proof.Gen.Kernel.Launch
import proofs.«159041_j38259568672963_1_alg».proof.Proof.Gen.Kernel.Skeleton
import proofs.«159041_j38259568672963_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- What core `c`'s buffers hold when the region is entered: what they were launched with (the program is the
    region alone). -/
abbrev V (c : Dev nD) (b : Ref sig .tc) : Buf (Elt F) ((c : Thread nD τ).loc b) := m ((c : Thread nD τ).loc b)

/-- The program is its region and nothing else. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window of the first operand holds its block whenever the body runs, fetched at that point or kept
    from the point before: the block index moves only when it is fetched. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the row-block window of the second operand. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- The whole of a row block, and the whole of the output block, as rectangles. -/
abbrev rIn : Rect S1024x256 := Rect.unit (s := S1024x256) ![0, 0] S1024x256.size inb_S1024x256_S1024x256_0_0
abbrev rOut : Rect S1024x1024 := Rect.unit (s := S1024x1024) ![0, 0] S1024x1024.size inb_S1024x1024_S1024x1024_0_0

/-- The output block after the body, from the two row blocks: one store, over the whole block. -/
def out2 (x0 x1 : Vec F S1024x256 .f32) : Vec F S1024x1024 .f32 :=
  View.canon [⟨rOut, k0_pay1 (View.ld x0 rIn) (View.ld x1 rIn)⟩]

/-- That one store covers the block. -/
theorem cover2 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- On whole staging buffers, the two inputs' at `x0` and `x1` and the output's at anything, the body runs and leaves
    the inputs' as they were and the output's at `out2 x0 x1`. -/
theorem sound_kernel (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1024 .f32) (harg4 : arg4.IsWhole)
    (x0 : Vec F S1024x256 .f32) (x1 : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc0__eucl_kernel i arg2 harg2 arg3 harg3 arg4 harg4) K := by
  simp only [cc0__eucl_kernel_eq_skeleton]; unfold cc0__eucl_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The proof data -/

/-- On core `c`: every window's array as the region finds it; after the body at point `t` each input's buffer still
    at its block and the output's at `out2` of the two blocks; the invariant says only that the rest of the core's
    scoped memory is there (the body uses none of it); nothing owed. The first operand's window holds the LEFT half of
    the argument array's share, the second's the RIGHT half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation (c : Dev nD) : BodyObligation (dats (F := F) m 0 c) (defs₀ (F := F)) Variants.none () Set.univ := fun t => by
  rw [bigSep_W0, bigSep_W0]
  exact sound_body m c t

/-! ## The argument array, halved between the two windows that read it -/

/-- The windows stage two buffers in all: the argument and the result. -/
theorem arrRefs_eq : Finset.univ.image (Pipeline.arrRef spec0) = ([main_arg0, main_v0] : List (Ref sig .tc)).toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The two buffers, each held whole, give every window its array at the share the proof data names: the result's
    outright, the argument's as its two halves, one to each of the windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_v0] arrRefs_eq (by decide), bigSep_W0]
  rw [share0, share1, share2, (arr_whole0 0).set_eq_univ, (arr_whole0 2).set_eq_univ]
  show iprop(((c.tc : Thread nD τ).loc main_arg0 ↦{fullShare} V m c main_arg0) ∗ ((c.tc : Thread nD τ).loc main_v0 ↦{fullShare} V m c main_v0)) ⊢ _
  iintro ⟨HA, HO⟩
  ihave HA := (pointsTo_share (PosShare.mem_left_op_right fullShare)).1 $$ HA
  icases HA with ⟨HL, HR⟩
  isplitl [HL]; · iexact HL
  isplitl [HR]; · iexact HR
  iexact HO

/-! ## The run -/

/-- From any memory with zero counters every weakly fair execution of the program terminates without a fault, the
    result array then at the entry contents overwritten, block by block in point order, by what the body stored, and
    the argument array as it was. -/
theorem run_main : θ_run defs (onTc (τ := τ) (main (F := F))) (s₀ m ρ) (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := _) (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      dsimp only [dats]
      iintro ⟨-, H⟩
      iexact H)
    (hout := fun c => by
      dsimp only [dats]
      iintro H
      isplitr; · iempintro
      iexact H)
    (QY := fun _ _ => True)
    (hY := fun c s' => by
      iintro ⟨-, -, HSI⟩
      imodintro
      isplitr; · ipureintro; trivial
      iexact HSI)
    (hQ := fun s h c => ⟨(h c).1 2, ((h c).1 0).trans (((dats m 0 c).arrAt_in 0 rfl _).trans (A_eq m c 0))⟩)

/-- info: 'Cert.Kernel.Run.run_main' depends on axioms: [propext, Classical.choice, Quot.sound] -/
#guard_msgs in #print axioms run_main

/-- The frame: the program runs to the end without a fault and leaves its argument array as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Run

end
-- ==== Proof.RunKI.lean ====
/-
  The run of the pairwise-distance kernel, at any float instance.

  The pallas_call has a grid of 8 × 8 points (i, j). Its two input windows are BOTH cut from the one argument array:
  window 0 is the row block i (1024 rows of 256), window 1 the row block j; window 2 is the output's (i, j) block of
  1024 × 1024. At a point the body loads the two row blocks, computes one value `k0_pay1` of them, and stores it over
  the whole output block (it also loads the output block first and never uses what it read).

  Because two windows read one array, the array's points-to cannot be handed to each window whole: it is halved along
  the share, window 0 holding the left half and window 1 the right, which is enough to read from. The output window
  holds its array outright. With that split the library's launch for windows that share arrays applies, and its
  conclusion names each array after the run: the argument array as it was, the output array as the entry contents
  overwritten block by block with what the body stored.
-/
import proofs.«159041_j38259568672963_1_alg».proof.Proof.Gen.KernelIdeal.Launch
import proofs.«159041_j38259568672963_1_alg».proof.Proof.Gen.KernelIdeal.Skeleton
import proofs.«159041_j38259568672963_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its one region -/

/-- What core `c`'s buffers hold when the region is entered: what they were launched with (the program is the
    region alone). -/
abbrev V (c : Dev nD) (b : Ref sig .tc) : Buf (Elt F) ((c : Thread nD τ).loc b) := m ((c : Thread nD τ).loc b)

/-- The program is its region and nothing else. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block of its array at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row-block window of the first operand holds its block whenever the body runs, fetched at that point or kept
    from the point before: the block index moves only when it is fetched. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the row-block window of the second operand. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body stores -/

/-- The whole of a row block, and the whole of the output block, as rectangles. -/
abbrev rIn : Rect S1024x256 := Rect.unit (s := S1024x256) ![0, 0] S1024x256.size inb_S1024x256_S1024x256_0_0
abbrev rOut : Rect S1024x1024 := Rect.unit (s := S1024x1024) ![0, 0] S1024x1024.size inb_S1024x1024_S1024x1024_0_0

/-- The output block after the body, from the two row blocks: one store, over the whole block. -/
def out2 (x0 x1 : Vec F S1024x256 .f32) : Vec F S1024x1024 .f32 :=
  View.canon [⟨rOut, k0_pay1 (View.ld x0 rIn) (View.ld x1 rIn)⟩]

/-- That one store covers the block. -/
theorem cover2 (p0 : Vec F S1024x1024 .f32) (y : S1024x1024.Idx) :
    ∃ pc ∈ ([⟨rOut, p0⟩] : List (View.Piece (Elt F) S1024x1024 .f32)), y ∈ pc.1.set :=
  View.cover_of_tiled [⟨rOut, p0⟩] S1024x1024.size (by rfl) y

/-! ## The body's triple -/

set_option maxHeartbeats 1000000 in
/-- On whole staging buffers, the two inputs' at `x0` and `x1` and the output's at anything, the body runs and leaves
    the inputs' as they were and the output's at `out2 x0 x1`. -/
theorem sound_kernel (c : Dev nD) (E : Set ℕ) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1024 .f32) (harg4 : arg4.IsWhole)
    (x0 : Vec F S1024x256 .f32) (x1 : Vec F S1024x256 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2 x0 x1)) -∗ K ⟨⟩))
      ⊢ wp frame (wpE (defs₀ (F := F)) Variants.none c none) E (cc0__eucl_kernel i arg2 harg2 arg3 harg3 arg4 harg4) K := by
  simp only [cc0__eucl_kernel_eq_skeleton]; unfold cc0__eucl_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The proof data -/

/-- On core `c`: every window's array as the region finds it; after the body at point `t` each input's buffer still
    at its block and the output's at `out2` of the two blocks; the invariant says only that the rest of the core's
    scoped memory is there (the body uses none of it); nothing owed. The first operand's window holds the LEFT half of
    the argument array's share, the second's the RIGHT half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation (c : Dev nD) : BodyObligation (dats (F := F) m 0 c) (defs₀ (F := F)) Variants.none () Set.univ := fun t => by
  rw [bigSep_W0, bigSep_W0]
  exact sound_body m c t

/-! ## The argument array, halved between the two windows that read it -/

/-- The windows stage two buffers in all: the argument and the result. -/
theorem arrRefs_eq : Finset.univ.image (Pipeline.arrRef spec0) = ([main_arg0, main_v0] : List (Ref sig .tc)).toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The two buffers, each held whole, give every window its array at the share the proof data names: the result's
    outright, the argument's as its two halves, one to each of the windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_arg0, main_v0] arrRefs_eq (by decide), bigSep_W0]
  rw [share0, share1, share2, (arr_whole0 0).set_eq_univ, (arr_whole0 2).set_eq_univ]
  show iprop(((c.tc : Thread nD τ).loc main_arg0 ↦{fullShare} V m c main_arg0) ∗ ((c.tc : Thread nD τ).loc main_v0 ↦{fullShare} V m c main_v0)) ⊢ _
  iintro ⟨HA, HO⟩
  ihave HA := (pointsTo_share (PosShare.mem_left_op_right fullShare)).1 $$ HA
  icases HA with ⟨HL, HR⟩
  isplitl [HL]; · iexact HL
  isplitl [HR]; · iexact HR
  iexact HO

/-! ## The run -/

/-- From any memory with zero counters every weakly fair execution of the program terminates without a fault, the
    result array then at the entry contents overwritten, block by block in point order, by what the body stored, and
    the argument array as it was. -/
theorem run_main : θ_run defs (onTc (τ := τ) (main (F := F))) (s₀ m ρ) (fun r => ∀ c : Dev nD,
      r.2.mem ((c.tc : Thread nD τ).loc main_v0) = (dats m 0 c).arrAt 2 cfg0.N
      ∧ r.2.mem ((c.tc : Thread nD τ).loc main_arg0) = m ((c.tc : Thread nD τ).loc main_arg0)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := _) (hu₀ := .rfl)
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      dsimp only [dats]
      iintro ⟨-, H⟩
      iexact H)
    (hout := fun c => by
      dsimp only [dats]
      iintro H
      isplitr; · iempintro
      iexact H)
    (QY := fun _ _ => True)
    (hY := fun c s' => by
      iintro ⟨-, -, HSI⟩
      imodintro
      isplitr; · ipureintro; trivial
      iexact HSI)
    (hQ := fun s h c => ⟨(h c).1 2, ((h c).1 0).trans (((dats m 0 c).arrAt_in 0 rfl _).trans (A_eq m c 0))⟩)

/-- info: 'Cert.KernelIdeal.Run.run_main' depends on axioms: [propext, Classical.choice, Quot.sound] -/
#guard_msgs in #print axioms run_main

/-- The frame: the program runs to the end without a fault and leaves its argument array as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Run

end
-- ==== Proof.Payload.lean ====
/-
  The kernel body's one stored value, read at an index of the [1024, 1024] block, over the extended reals.
-/
import proofs.«159041_j38259568672963_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen

/-- The sum along the second axis of a two-axis block, read at a row: the sum of that row's entries. -/
private theorem rowSum_apply (v : FVec Ideal S1024x256 .f32) (h : S1024x256.Reduces [1] S1024)
    (hφ : FKind.Formats .f32) (hacc : (0x00000000#32 : BitVec 32) = FKind.add.neutral .f32 hφ) (p : Fin 1024) :
    multiReduction (F := Ideal) .add [1] S1024 v 0x00000000#32 h hφ hacc (ix1 p) = ∑ k : Fin 256, v (ix2 p k) :=
  (Ideal.multiReduction_add_single v _ h hφ hacc (ix1 p)).trans
    (Finset.sum_congr rfl fun k _ => congrArg v (funext fun c => Fin.ext (by
      match c with
      | ⟨0, _⟩ => rfl
      | ⟨1, _⟩ => rfl)))

/-- A vector of length `a` viewed as a column `[a, 1]` reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column's entry in row `i`. -/
private theorem broadcastTo_a1_ab_apply {α : Type} {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- The first operand's index keeps the output's row on its kept axis. -/
private theorem lhs_axis0 (i : S1024x1024.Idx) (q : dot_S1024x256_S1024x256_S1024x1024_1_1_0_0_n_n.contr.Idx) :
    (dot_S1024x256_S1024x256_S1024x1024_1_1_0_0_n_n.lhsIdx i q 0).val = (i 0).val := by
  unfold DotDims.lhsIdx
  rw [dif_neg (show ¬(0 : Fin S1024x256.rank) ∈ dot_S1024x256_S1024x256_S1024x1024_1_1_0_0_n_n.lhsBatch by decide), dif_pos (show (0 : Fin S1024x256.rank) ∈ dot_S1024x256_S1024x256_S1024x1024_1_1_0_0_n_n.lhsNonContracting by decide)]
  rfl
/-- On its contracted axis the first operand's index is the contraction position. -/
private theorem lhs_axis1 (i : S1024x1024.Idx) (q : dot_S1024x256_S1024x256_S1024x1024_1_1_0_0_n_n.contr.Idx) :
    (dot_S1024x256_S1024x256_S1024x1024_1_1_0_0_n_n.lhsIdx i q 1).val = (q ⟨0, by decide⟩).val :=
  dot_S1024x256_S1024x256_S1024x1024_1_1_0_0_n_n.lhsIdx_val_of_single rfl i q
/-- The second operand's index keeps the output's column on its kept axis. -/
private theorem rhs_axis0 (i : S1024x1024.Idx) (q : dot_S1024x256_S1024x256_S1024x1024_1_1_0_0_n_n.contr.Idx) :
    (dot_S1024x256_S1024x256_S1024x1024_1_1_0_0_n_n.rhsIdx i q 0).val = (i 1).val := by
  unfold DotDims.rhsIdx
  rw [dif_neg (show ¬(0 : Fin S1024x256.rank) ∈ dot_S1024x256_S1024x256_S1024x1024_1_1_0_0_n_n.rhsBatch by decide), dif_pos (show (0 : Fin S1024x256.rank) ∈ dot_S1024x256_S1024x256_S1024x1024_1_1_0_0_n_n.rhsNonContracting by decide)]
  rfl
/-- On its contracted axis the second operand's index is the contraction position. -/
private theorem rhs_axis1 (i : S1024x1024.Idx) (q : dot_S1024x256_S1024x256_S1024x1024_1_1_0_0_n_n.contr.Idx) :
    (dot_S1024x256_S1024x256_S1024x1024_1_1_0_0_n_n.rhsIdx i q 1).val = (q ⟨0, by decide⟩).val :=
  dot_S1024x256_S1024x256_S1024x1024_1_1_0_0_n_n.rhsIdx_val_of_single rfl i q

/-- The matrix product of two row blocks contracted along their second axes, into a zero accumulator, read at `(p, q)`:
    the inner product of row `p` of the first with row `q` of the second. -/
private theorem gram_apply (a b : FVec Ideal S1024x256 .bf16) (p q : Fin 1024) :
    matmul (F := Ideal) dot_S1024x256_S1024x256_S1024x1024_1_1_0_0_n_n none a b (constant (F := Ideal) S1024x1024 .f32 0x00000000#32) (ix2 p q)
      = ∑ k : Fin 256, a (ix2 p k) * b (ix2 q k) := by
  simp only [matmul]
  rw [Ideal.matmul_constant_zero_apply, ← Equiv.sum_comp (contrEquiv1 dot_S1024x256_S1024x256_S1024x1024_1_1_0_0_n_n 256 rfl rfl).symm]
  refine Finset.sum_congr rfl fun k _ => ?_
  have hk := contrEquiv1_symm_val dot_S1024x256_S1024x256_S1024x1024_1_1_0_0_n_n 256 rfl rfl k
  have el : dot_S1024x256_S1024x256_S1024x1024_1_1_0_0_n_n.lhsIdx (ix2 p q) ((contrEquiv1 dot_S1024x256_S1024x256_S1024x1024_1_1_0_0_n_n 256 rfl rfl).symm k) = ix2 p k := funext fun c => Fin.ext (by
    match c with
    | ⟨0, _⟩ => exact lhs_axis0 _ _
    | ⟨1, _⟩ => exact (lhs_axis1 _ _).trans hk)
  have er : dot_S1024x256_S1024x256_S1024x1024_1_1_0_0_n_n.rhsIdx (ix2 p q) ((contrEquiv1 dot_S1024x256_S1024x256_S1024x1024_1_1_0_0_n_n 256 rfl rfl).symm k) = ix2 q k := funext fun c => Fin.ext (by
    match c with
    | ⟨0, _⟩ => exact rhs_axis0 _ _
    | ⟨1, _⟩ => exact (rhs_axis1 _ _).trans hk)
  rw [el, er]

/-- The squared norm of each row of a block, summed along the second axis and viewed as a column, read at `(r, u)`:
    the sum of the squares of row `r`. -/
private theorem sqNorm_col_apply (x : FVec Ideal S1024x256 .f32) (h : S1024x256.Reduces [1] S1024)
    (hφ : FKind.Formats .f32) (hacc : (0x00000000#32 : BitVec 32) = FKind.add.neutral .f32 hφ)
    (hc : S1024.ShapeCasts S1024x1) (r : Fin 1024) (u : Fin 1) :
    shapeCast S1024x1 (multiReduction (F := Ideal) .add [1] S1024 (mulf x x) 0x00000000#32 h hφ hacc) hc (ix2 r u)
      = ∑ k : Fin 256, x (ix2 r k) * x (ix2 r k) :=
  (shapeCast_a_a1_apply _ hc r u).trans (rowSum_apply (mulf x x) h hφ hacc r)

/-- Entry (p, q) of the stored block, from the two loaded row blocks `x0` (rows of the first operand) and `x1`
    (rows of the second): the two squared row norms added, twice the rows' inner product taken off, the result
    clamped at zero and rooted. -/
theorem pay_apply (x0 x1 : Vec Ideal S1024x256 .f32) (p q : Fin 1024) :
    k0_pay1 (F := Ideal) x0 x1 (ix2 p q)
      = Ideal.sqrt (max (((∑ k : Fin 256, x0 (ix2 p k) * x0 (ix2 p k)) + (∑ k : Fin 256, x1 (ix2 q k) * x1 (ix2 q k)))
          - Ideal.ofBits .f32 0x40000000#32 * (∑ k : Fin 256, x0 (ix2 p k) * x1 (ix2 q k))) (Ideal.ofBits .f32 0x00000000#32)) := by
  unfold k0_pay1
  -- the root, the clamp, the difference, the sum and the scaling act entrywise
  refine congrArg Ideal.sqrt (congrArg (max · (Ideal.ofBits .f32 0x00000000#32)) ?_)
  refine congrArg₂ (· - ·) (congrArg₂ (· + ·) ?_ ?_) (congrArg (Ideal.ofBits .f32 0x40000000#32 * ·) ?_)
  · -- the column of squared norms of the first block, repeated along the columns
    exact (broadcastTo_a1_ab_apply _ _ p q).trans (sqNorm_col_apply x0 _ _ _ _ p 0)
  · -- the column of squared norms of the second block, turned into a row and repeated along the rows
    exact (broadcastTo_1b_ab_apply _ _ p q).trans
      ((transpose_ix2_apply _ _ (0 : Fin 1) q).trans (sqNorm_col_apply x1 _ _ _ _ q 0))
  · -- the inner products; narrowing the format changes no extended real
    exact gram_apply _ _ p q

end Cert.KernelIdeal.Payload

end
-- ==== Proof.Spec.lean ====
/-
  The pairwise Euclidean distance matrix of the rows of an [8192, 256] array, as one function of the array over the
  extended reals: with  sqn n = Σₖ a[n,k]²  (a row's squared norm) and  gram n n' = Σₖ a[n,k]·a[n',k]  (two rows' inner
  product),
      dist n n' = √ max( (sqn n + sqn n') − 2·gram n n' , 0 ).
  Both programs compute exactly this term, in this association: no algebraic law beyond reading each sum at its index
  joins them, so nothing here needs the entries to be finite. The constants stay the words the programs print
  (0x40000000 for 2, 0x00000000 for 0): the same word on both sides is never evaluated.
-/
import Idealize.ShloMosaic.PureOps.Ideal
import Idealize.ShloMosaic.Lib.ValueIdx

noncomputable section

namespace Cert.Spec

open Idealize.ShloMosaic Idealize.ShloMosaic.ValueIdx

/-- The [8192, 256] argument array and the [8192, 8192] result array, as functions of their indices. -/
abbrev Arg : Type := (⟨2, ![8192, 256]⟩ : Shape).Idx → EReal
abbrev Res : Type := (⟨2, ![8192, 8192]⟩ : Shape).Idx → EReal

/-- The squared norm of row `n`. -/
def sqn (a : Arg) (n : Fin 8192) : EReal := ∑ k : Fin 256, a (ix2 n k) * a (ix2 n k)

/-- The inner product of rows `n` and `n'`. -/
def gram (a : Arg) (n n' : Fin 8192) : EReal := ∑ k : Fin 256, a (ix2 n k) * a (ix2 n' k)

/-- The distance between rows `n` and `n'` through the expanded square, clamped at zero before the root. -/
def dist (a : Arg) (n n' : Fin 8192) : EReal :=
  Ideal.sqrt (max ((sqn a n + sqn a n') - Ideal.ofBits .f32 0x40000000#32 * gram a n n') (Ideal.ofBits .f32 0x00000000#32))

/-- The whole distance matrix. -/
def G (a : Arg) : Res := fun j => dist a (j 0) (j 1)

theorem G_apply (a : Arg) (n n' : Fin 8192) : G a (ix2 n n') = dist a n n' := rfl

end Cert.Spec

end
-- ==== Proof.KernelValue.lean ====
/-
  The result array after the kernel's run is the distance matrix of the argument array.

  Point (i, j) of the 8 × 8 grid writes back the output's block (i, j). Entry (p, q) of what it stores is computed from
  row p of the first operand's block — row 1024·i + p of the argument — and row q of the second operand's block — row
  1024·j + q of the argument — and is exactly the distance entry (1024·i + p, 1024·j + q). Every entry (n, n') of the
  result lies in the block (n / 1024, n' / 1024), which some point writes, so the written blocks are the restrictions
  of one function of the argument array, and that function is what the array holds at the end.
-/
import proofs.«159041_j38259568672963_1_alg».proof.Proof.RunKI
import proofs.«159041_j38259568672963_1_alg».proof.Proof.Payload
import proofs.«159041_j38259568672963_1_alg».proof.Proof.Spec
import Idealize.ShloMosaic.Lib.Pipeline.Value

set_option maxRecDepth 16384

noncomputable section

namespace Cert.KernelIdeal.KValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The three index maps over the grid: the first operand's block row is the output's block row, the second
    operand's block row is the output's block COLUMN, both operands sit at block column 0, and the output's block
    indices stay below 8. -/
theorem idx_facts : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every output block is some point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- The argument's row that row `p` of the first operand's block is at point `t`, and the one row `q` of the second's is. -/
def row (t : Fin cfg0.N) (p : Fin 1024) : Fin 8192 :=
  ⟨win0_2.index t (0 : Fin 2) * 1024 + p.val, by have := (idx_facts t).2.2.2.2.1; have := p.isLt; omega⟩
def col (t : Fin cfg0.N) (q : Fin 1024) : Fin 8192 :=
  ⟨win0_2.index t (1 : Fin 2) * 1024 + q.val, by have := (idx_facts t).2.2.2.2.2; have := q.isLt; omega⟩

/-- Entry (p, k) of the first operand's block is entry (row t p, k) of the argument. -/
theorem blk0_apply (c : Dev nD) (t : Fin cfg0.N) (p : Fin 1024) (k : Fin 256) :
    Run.iblk m c 0 t (ix2 p k) = m ((c.tc : Thread nD τ).loc main_arg0) (ix2 (row t p) k) := by
  show Run.V m c main_arg0 (((cfg0.win 0).blk t).view.emb (ix2 p k)) = _
  refine congrArg (m ((c.tc : Thread nD τ).loc main_arg0)) ?_
  obtain ⟨e0, e1, e2, e3, e4, e5⟩ := idx_facts t
  funext a; apply Fin.ext
  match a with
  | ⟨0, _⟩ => show win0_0.index t (0 : Fin 2) * 1024 + 1 * p.val = win0_2.index t (0 : Fin 2) * 1024 + p.val; omega
  | ⟨1, _⟩ => show win0_0.index t (1 : Fin 2) * 256 + 1 * k.val = k.val; omega

/-- Entry (q, k) of the second operand's block is entry (col t q, k) of the argument. -/
theorem blk1_apply (c : Dev nD) (t : Fin cfg0.N) (q : Fin 1024) (k : Fin 256) :
    Run.iblk m c 1 t (ix2 q k) = m ((c.tc : Thread nD τ).loc main_arg0) (ix2 (col t q) k) := by
  show Run.V m c main_arg0 (((cfg0.win 1).blk t).view.emb (ix2 q k)) = _
  refine congrArg (m ((c.tc : Thread nD τ).loc main_arg0)) ?_
  obtain ⟨e0, e1, e2, e3, e4, e5⟩ := idx_facts t
  funext a; apply Fin.ext
  match a with
  | ⟨0, _⟩ => show win0_1.index t (0 : Fin 2) * 1024 + 1 * q.val = win0_2.index t (1 : Fin 2) * 1024 + q.val; omega
  | ⟨1, _⟩ => show win0_1.index t (1 : Fin 2) * 256 + 1 * k.val = k.val; omega

/-- Entry (p, q) of the output's block at point `t` is entry (row t p, col t q) of the result array. -/
theorem emb2 (t : Fin cfg0.N) (p q : Fin 1024) :
    ((cfg0.win 2).blk t).view.emb (ix2 p q) = ix2 (row t p) (col t q) := by
  funext a; apply Fin.ext
  match a with
  | ⟨0, _⟩ => show win0_2.index t (0 : Fin 2) * 1024 + 1 * p.val = win0_2.index t (0 : Fin 2) * 1024 + p.val; omega
  | ⟨1, _⟩ => show win0_2.index t (1 : Fin 2) * 1024 + 1 * q.val = win0_2.index t (1 : Fin 2) * 1024 + q.val; omega

/-- What point `t` writes back is block `t` of the distance matrix of the argument. -/
theorem flushed_eq (c : Dev nD) (t : Fin cfg0.N) :
    (Run.dats m 0 c).flushed 2 t
      = ((cfg0.win 2).blk t).view.read (Elt Ideal) (Cert.Spec.G (m ((c.tc : Thread nD τ).loc main_arg0))) := by
  show (cfg0.win 2).cut (grid0.coords t) ((Run.dats m 0 c).after 2 t) = _
  rw [Run.after2]
  unfold Run.out2
  rw [View.canon_unit_zero hz]
  simp only [View.ld_unit_zero (S := S1024x256) hz]
  funext j
  obtain ⟨p, q, rfl⟩ : ∃ (p q : Fin 1024), j = ix2 p q := ⟨j 0, j 1, eq_ix2 j⟩
  refine (Cert.KernelIdeal.Payload.pay_apply (Run.iblk m c 0 t) (Run.iblk m c 1 t) p q).trans ?_
  show _ = Cert.Spec.G (m ((c.tc : Thread nD τ).loc main_arg0)) (((cfg0.win 2).blk t).view.emb (ix2 p q))
  rw [emb2, Cert.Spec.G_apply]
  simp only [blk0_apply, blk1_apply]
  rfl

/-- An index of the result is in point `t`'s block iff each coordinate is in the block's range on its axis. -/
theorem mem_blk (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- Every entry of the result is in the block some point writes back. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- The result array after every write-back: the distance matrix of the argument. -/
theorem final (c : Dev nD) :
    (Run.dats m 0 c).arrAt 2 cfg0.N = Cert.Spec.G (m ((c.tc : Thread nD τ).loc main_arg0)) :=
  (Run.dats m 0 c).arrAt_eq_of_cover 2 _ (fun t _ => flushed_eq m c t) cover

/-- The run, read: the result array ends at the distance matrix of the argument, the argument as it was. -/
theorem run : θ_run defs (onTc (τ := τ) (main (F := Ideal))) ⟨m, fun _ => 0, ρ⟩ fun r => ∀ c : Dev nD,
      r.2.mem ((c.tc : Thread nD τ).loc main_v0) = Cert.Spec.G (m ((c.tc : Thread nD τ).loc main_arg0))
      ∧ r.2.mem ((c.tc : Thread nD τ).loc main_arg0) = m ((c.tc : Thread nD τ).loc main_arg0) :=
  (θ_run defs _ _).mono (fun r h c => ⟨(h c).1.trans (final m c), (h c).2⟩) (Run.run_main m ρ)

end Cert.KernelIdeal.KValue

end
-- ==== Proof.RefValue.lean ====
/-
  The reference's result, operation by operation, is the distance matrix `Cert.Spec.G` of its argument.
-/
import proofs.«159041_j38259568672963_1_alg».proof.Proof.Gen.ReferenceIdeal.Read
import proofs.«159041_j38259568672963_1_alg».proof.Proof.Spec

noncomputable section

namespace Cert.ReferenceIdeal.RefValue

open Idealize.ShloMosaic Idealize.ShloMosaic.ValueIdx Cert.ReferenceIdeal Cert.ReferenceIdeal.Read

/-- The row sum of squares: the reduce's stage at row `m` is the zero word plus `Σₖ a[m,k]·a[m,k]`, and the zero word is `0`. -/
private theorem sqn_read (x0 : (⟨S8192x256, .f32⟩ : BufTy).Contents (Elt Ideal)) (m : Fin 8192) :
    val_main_v1 (F := Ideal) x0 (ix1 m) = Cert.Spec.sqn x0 m := by
  have e : ∀ k : Fin 256, idx_main_v1 (ix1 m) k = ix2 m k := fun k =>
    funext fun a => Fin.ext (by match a with | ⟨0, _⟩ => rfl | ⟨1, _⟩ => rfl)
  rw [val_main_v1_apply, val_main_cst_apply]
  simp only [e, val_main_v0_apply, Ideal.mulf_def, Ideal.ofBits_def, Ideal.ofBits_zero_f32, zero_add, Cert.Spec.sqn]

/-- The inner product of two rows: the contraction's stage at `(n, n')` pairs `a[n,k]` with the transposed operand at
    `(k, n')`, which is `a[n',k]`. -/
private theorem gram_read (x0 : (⟨S8192x256, .f32⟩ : BufTy).Contents (Elt Ideal)) (n n' : Fin 8192) :
    val_main_v3 (F := Ideal) x0 (ix2 n n') = Cert.Spec.gram x0 n n' := by
  have el : ∀ k : Fin 256, lidx_main_v3 (ix2 n n') k = ix2 n k := fun k =>
    funext fun a => Fin.ext (by match a with | ⟨0, _⟩ => rfl | ⟨1, _⟩ => rfl)
  have er : ∀ k : Fin 256, idx_main_v2 (ridx_main_v3 (ix2 n n') k) = ix2 n' k := fun k =>
    funext fun a => Fin.ext (by match a with | ⟨0, _⟩ => rfl | ⟨1, _⟩ => rfl)
  rw [val_main_v3_apply]
  simp only [val_main_v2_apply, el, er, Cert.Spec.gram]

/-- Read at the extended reals, the last stage of the reference is `Cert.Spec.G` of the argument array. -/
theorem ref_eq (x0 : (⟨S8192x256, .f32⟩ : BufTy).Contents (Elt Ideal)) :
    val_main_v14 (F := Ideal) x0 = Cert.Spec.G x0 := by
  funext i
  obtain ⟨n, n', rfl⟩ : ∃ (n n' : Fin 8192), i = ix2 n n' := ⟨i 0, i 1, eq_ix2 i⟩
  -- the two keepdims broadcasts read the row sums at row `n` (column form) and at row `n'` (row form)
  have e1 : idx_main_v4 (idx_main_v6 (ix2 n n')) = ix1 n :=
    funext fun a => Fin.ext (by match a with | ⟨0, _⟩ => rfl)
  have e2 : idx_main_v5 (idx_main_v7 (ix2 n n')) = ix1 n' :=
    funext fun a => Fin.ext (by match a with | ⟨0, _⟩ => rfl)
  rw [val_main_v14_apply, val_main_v13_apply, val_main_v11_apply, val_main_v12_apply, val_main_cst_1_apply,
    val_main_v8_apply, val_main_v10_apply, val_main_v9_apply, val_main_cst_0_apply, val_main_v6_apply,
    val_main_v7_apply, val_main_v4_apply, val_main_v5_apply, e1, e2, sqn_read, sqn_read, gram_read,
    Cert.Spec.G_apply]
  simp only [Ideal.hostUnary_sqrt_def, Ideal.maximumf_def, Ideal.subf_def, Ideal.addf_def, Ideal.mulf_def,
    Ideal.ofBits_def, Cert.Spec.dist]

end Cert.ReferenceIdeal.RefValue

end
-- ==== Proof.lean ====
/-
  Pairwise Euclidean distances of the 8192 rows of an [8192, 256] array: a Pallas kernel against its jnp reference,
  equal over the extended reals.

  Both programs compute, for rows n and n' of the argument a,
      √ max( (Σₖ a[n,k]² + Σₖ a[n',k]²) − 2·Σₖ a[n,k]·a[n',k] , 0 ),
  with the same association and the same two constants. The kernel does it tile by tile: an 8 × 8 grid of
  1024 × 1024 output blocks, each from two 1024-row blocks of the argument (one for the block's rows, one for its
  columns), the squared norms by lane sums and the inner products by a matrix product of the blocks narrowed to
  bfloat16 — a narrowing that changes no extended real. The reference does it on whole arrays. Reading both at an
  index gives the same term, so no law that would need finite entries is used and the precondition is never opened.

  The pieces: the kernel's run at any float instance, which gives both kernel frames and names the result array after
  the run (Proof/RunKI.lean, and Proof/RunK.lean for the program read at the word-level instance); the stored value at
  an index (Proof/Payload.lean); the blocks assembled into the whole array (Proof/KernelValue.lean); the reference read
  operation by operation (Proof/RefValue.lean); the common specification (Proof/Spec.lean). The ideal pass rewrote
  nothing, so there is nothing to preserve.
-/
import proofs.«159041_j38259568672963_1_alg».proof.Defs
import proofs.«159041_j38259568672963_1_alg».proof.Proof.Gen.Kernel
import proofs.«159041_j38259568672963_1_alg».proof.Proof.Gen.KernelIdeal
import proofs.«159041_j38259568672963_1_alg».proof.Proof.Gen.ReferenceIdeal
import proofs.«159041_j38259568672963_1_alg».proof.Proof.Gen.Pre_finite_inputs
import proofs.«159041_j38259568672963_1_alg».proof.Proof.RunK
import proofs.«159041_j38259568672963_1_alg».proof.Proof.KernelValue
import proofs.«159041_j38259568672963_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its argument as it found it. -/
theorem frame_k : Cert.frame_Kernel := fun m ρ _ => Cert.Kernel.Run.frame m ρ

/-- So does its idealization. -/
theorem frame_ki : Cert.frame_KernelIdeal := fun m ρ _ => Cert.KernelIdeal.Run.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the argument, both programs end with the distance matrix of that argument in their
    result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
